-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S40000x128 .f32) (main_arg1 : IVec S640000 32) (main_arg2 : IVec S640000 32) (main_arg3 : FVec F S128x128 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S8000x128 : Shape := ⟨2, ![8000, 128]⟩

abbrev nBuf : Space → Nat
  | .hbm => 20
  | .vmem => 6
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S1x128, .f32⟩
  | .hbm, ⟨19, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S8000x128_S128x128_S8000x128_1_1_0_0_n_n_wf : DotDims.WF S8000x128 S128x128 S8000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S40000x128.size a
  hwx0_0 : ∀ i : grid0.Coords, EltTy.bits .f32 = 32 ∨ (Rect.block (s := S40000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S40000x128.size a
  hwx0_3 : ∀ i : grid0.Coords, EltTy.bits .f32 = 32 ∨ (Rect.block (s := S40000x128) S8000x128.size (cc0_transform_3 i) (hinb0_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S8000x128_S128x128_S8000x128_1_1_0_0_n_n : DotDims S8000x128 S128x128 S8000x128 where
  lhsContracting := [1]
  rhsContracting := [1]
  lhsNonContracting := [0]
  rhsNonContracting := [0]
  lhsBatch := []
  rhsBatch := []
  wf := dot_S8000x128_S128x128_S8000x128_1_1_0_0_n_n_wf

abbrev win0_0 : Pipeline.Window sig grid0 :=
  Pipeline.Window.ofSpec (Memref.whole main_v9) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S128x128, .f32⟩
  | .hbm, ⟨19, _⟩ => ⟨S40000x128, .f32⟩
  | .hbm, ⟨20, _⟩ => ⟨S1x128, .f32⟩
  | .hbm, ⟨21, _⟩ => ⟨S40000x128, .f32⟩
  | .hbm, ⟨22, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Payload.lean ====
/-
  What the kernel body stores, read at one index of its block, over the extended reals.

  The body loads a block `x` of 8000 rows of node features, the whole weight matrix `w` and the bias as a
  one-row array `b`; it narrows `x` and `w` to bf16 (no change of value over the extended reals), multiplies
  them on the matrix unit contracting the SECOND axis of each into a zero accumulator, and adds the bias row
  broadcast down the rows. At row `p`, channel `q` of the block that is
      (∑ k, x (p, k) · w (q, k)) + b (0, q).
-/
import proofs.«127826_j16449724744840_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! The matrix product's operand indices, axis by axis: the left operand is read at (output row, `k`), the
    right operand at (output column, `k`). -/

theorem lhs_row (i : S8000x128.Idx) (q : dot_S8000x128_S128x128_S8000x128_1_1_0_0_n_n.contr.Idx) :
    (dot_S8000x128_S128x128_S8000x128_1_1_0_0_n_n.lhsIdx i q 0).val = (i 0).val := by
  unfold DotDims.lhsIdx
  rw [dif_neg (show ¬(0 : Fin S8000x128.rank) ∈ dot_S8000x128_S128x128_S8000x128_1_1_0_0_n_n.lhsBatch by decide), dif_pos (show (0 : Fin S8000x128.rank) ∈ dot_S8000x128_S128x128_S8000x128_1_1_0_0_n_n.lhsNonContracting by decide)]
  rfl
theorem lhs_contr (i : S8000x128.Idx) (q : dot_S8000x128_S128x128_S8000x128_1_1_0_0_n_n.contr.Idx) :
    (dot_S8000x128_S128x128_S8000x128_1_1_0_0_n_n.lhsIdx i q 1).val = (q ⟨0, by decide⟩).val :=
  dot_S8000x128_S128x128_S8000x128_1_1_0_0_n_n.lhsIdx_val_of_single rfl i q
theorem rhs_row (i : S8000x128.Idx) (q : dot_S8000x128_S128x128_S8000x128_1_1_0_0_n_n.contr.Idx) :
    (dot_S8000x128_S128x128_S8000x128_1_1_0_0_n_n.rhsIdx i q 0).val = (i 1).val := by
  unfold DotDims.rhsIdx
  rw [dif_neg (show ¬(0 : Fin S128x128.rank) ∈ dot_S8000x128_S128x128_S8000x128_1_1_0_0_n_n.rhsBatch by decide), dif_pos (show (0 : Fin S128x128.rank) ∈ dot_S8000x128_S128x128_S8000x128_1_1_0_0_n_n.rhsNonContracting by decide)]
  rfl
theorem rhs_contr (i : S8000x128.Idx) (q : dot_S8000x128_S128x128_S8000x128_1_1_0_0_n_n.contr.Idx) :
    (dot_S8000x128_S128x128_S8000x128_1_1_0_0_n_n.rhsIdx i q 1).val = (q ⟨0, by decide⟩).val :=
  dot_S8000x128_S128x128_S8000x128_1_1_0_0_n_n.rhsIdx_val_of_single rfl i q

/-- The matrix product into the zero accumulator at `(p, q)`: row `p` of the left operand against row `q` of
    the right one. -/
theorem matmul_at (l : FVec Ideal S8000x128 .bf16) (r : FVec Ideal S128x128 .bf16) (p : Fin 8000) (q : Fin 128) :
    matmul (F := Ideal) dot_S8000x128_S128x128_S8000x128_1_1_0_0_n_n none l r (constant S8000x128 .f32 0x00000000#32) (ix2 p q)
      = ∑ k : Fin 128, l (ix2 p k) * r (ix2 q k) := by
  simp only [matmul]
  rw [Ideal.matmul_constant_zero_apply, ← Equiv.sum_comp (ValueIdx.contrEquiv1 dot_S8000x128_S128x128_S8000x128_1_1_0_0_n_n 128 rfl rfl).symm]
  refine Finset.sum_congr rfl fun k _ => ?_
  have hk := ValueIdx.contrEquiv1_symm_val dot_S8000x128_S128x128_S8000x128_1_1_0_0_n_n 128 rfl rfl k
  have el : dot_S8000x128_S128x128_S8000x128_1_1_0_0_n_n.lhsIdx (ix2 p q) ((ValueIdx.contrEquiv1 dot_S8000x128_S128x128_S8000x128_1_1_0_0_n_n 128 rfl rfl).symm k) = ix2 p k := funext fun a => Fin.ext (by
    match a with
    | ⟨0, _⟩ => exact lhs_row _ _
    | ⟨1, _⟩ => exact (lhs_contr _ _).trans hk)
  have er : dot_S8000x128_S128x128_S8000x128_1_1_0_0_n_n.rhsIdx (ix2 p q) ((ValueIdx.contrEquiv1 dot_S8000x128_S128x128_S8000x128_1_1_0_0_n_n 128 rfl rfl).symm k) = ix2 q k := funext fun a => Fin.ext (by
    match a with
    | ⟨0, _⟩ => exact rhs_row _ _
    | ⟨1, _⟩ => exact (rhs_contr _ _).trans hk)
  rw [el, er]

/-- The stored value at `(p, q)` of the block. -/
theorem pay_at (x : Vec Ideal S8000x128 .f32) (w : Vec Ideal S128x128 .f32) (b : Vec Ideal S1x128 .f32)
    (p : Fin 8000) (q : Fin 128) :
    k0_pay1 (F := Ideal) x w b (ix2 p q) = (∑ k : Fin 128, x (ix2 p k) * w (ix2 q k)) + b (ix2 (0 : Fin 1) q) := by
  unfold k0_pay1
  rw [addf_apply, matmul_at, broadcastTo_1b_ab_apply, shapeCast_self, shapeCast_self]
  rfl

end Cert.KernelIdeal.Payload

end
-- ==== Proof.Projection.lean ====
/-
  The linear layer as ONE function of whole arrays, read index by index over the extended reals.

  For node features `h` (one row of 128 numbers per node), weights `W` (one row per output channel) and a
  bias `b`, the layer's output at node `r`, channel `j` is the inner product of row `r` of `h` with row
  `j` of `W`, plus `b j`:   out (r, j) = (∑ k, h (r, k) · W (j, k)) + b j.
  Both programs compute exactly this sum, term for term and in the same order of `k`; no law of arithmetic
  beyond reading the operations at an index is needed, so nothing here asks the numbers to be finite.
-/
import Idealize.ShloMosaic.PureOps.Ideal
import Idealize.ShloMosaic.Lib.ValueIdx

noncomputable section

namespace Cert.Projection

open Idealize.ShloMosaic Idealize.ShloMosaic.ValueIdx

/-- `h · Wᵀ + b` at index `(r, j)`: row `r` of `h` against row `j` of `W`, plus the bias of channel `j`. -/
def linear (h : (⟨2, ![40000, 128]⟩ : Shape).Idx → EReal) (W : (⟨2, ![128, 128]⟩ : Shape).Idx → EReal)
    (b : (⟨1, ![128]⟩ : Shape).Idx → EReal) : (⟨2, ![40000, 128]⟩ : Shape).Idx → EReal :=
  fun i => (∑ k : Fin 128, h (ix2 (i 0) k) * W (ix2 (i 1) k)) + b (ix1 (i 1))

theorem linear_apply (h : (⟨2, ![40000, 128]⟩ : Shape).Idx → EReal) (W : (⟨2, ![128, 128]⟩ : Shape).Idx → EReal)
    (b : (⟨1, ![128]⟩ : Shape).Idx → EReal) (r : Fin 40000) (j : Fin 128) :
    linear h W b (ix2 r j) = (∑ k : Fin 128, h (ix2 r k) * W (ix2 j k)) + b (ix1 j) := rfl

end Cert.Projection

end
-- ==== Proof.KernelArrays.lean ====
/-
  The arrays the pallas_call is given, as functions of the program's arguments.

  Before the call the program gathers the source node's features along every edge and sums them into the
  destination nodes (the message-passing stage: a gather by `src`, with a negative index wrapped once by the
  number of nodes, then a scatter-add by `dst` into a zero array), and lays the bias out as a one-row array.
  The call's three operands are therefore: the node features `messages x src dst`; the weights, untouched; the
  bias as one row, whose entry at `(0, j)` is `b j`.
-/
import proofs.«127826_j16449724744840_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

/-- The message-passing stage: every edge carries its source node's feature row, and the rows arriving at a node
    are summed. -/
def messages (x : (⟨S40000x128, .f32⟩ : BufTy).Contents (Elt Ideal)) (src dst : (⟨S640000, .i32⟩ : BufTy).Contents (Elt Ideal)) :
    (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (Host.gather gather_S40000x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 40000#32))) src)))

variable (m : (ℓ : Loc nD τ sig) → Buf (Elt Ideal) ℓ)

/-- The node features the call is given. -/
abbrev feat (c : Dev nD) : Vec Ideal S40000x128 .f32 := V m c main_v9
/-- The weights the call is given. -/
abbrev wts (c : Dev nD) : Vec Ideal S128x128 .f32 := V m c main_arg3
/-- The bias the call is given, as a one-row array … -/
abbrev brow (c : Dev nD) : Vec Ideal S1x128 .f32 := V m c main_v10
/-- … and as the vector of that row's entries. -/
def bias (c : Dev nD) : Vec Ideal S128 .f32 := fun i => brow m c (ix2 (0 : Fin 1) (i 0))

/-- The features are the message-passing stage's result on the arguments. -/
theorem feat_eq (c : Dev nD) :
    feat m c = messages (m ((c : Thread nD τ).loc main_arg0)) (m ((c : Thread nD τ).loc main_arg1)) (m ((c : Thread nD τ).loc main_arg2)) := by
  show StableHlo.after hostOps0 (fun b => m (c, b)) (Proc.devRef .tc main_v9) = _
  after_results
  rfl

/-- The weights are the argument. -/
theorem wts_eq (c : Dev nD) : wts m c = m ((c : Thread nD τ).loc main_arg3) := V_main_arg3 m c

/-- The one-row bias is the argument recast. -/
theorem brow_eq (c : Dev nD) :
    brow m c = shapeCast S1x128 (m ((c : Thread nD τ).loc main_arg4) : Vec Ideal S128 .f32) shapeCasts_S128_S1x128 := by
  dsimp only [brow, Gen.V, Gen.hostOps0]
  after_results
  rfl

/-- Its row's entries are the argument's. -/
theorem bias_eq (c : Dev nD) : bias m c = m ((c : Thread nD τ).loc main_arg4) := by
  funext i
  unfold bias
  rw [brow_eq]
  exact (shapeCast_a_1a_apply (m ((c : Thread nD τ).loc main_arg4) : Vec Ideal S128 .f32) shapeCasts_S128_S1x128 (0 : Fin 1) (i 0)).trans
    (congrArg _ (eq_ix1 i).symm)

end Cert.KernelIdeal.Arrays

end
-- ==== Proof.KernelLinear.lean ====
/-
  The kernel's output array after the run is the linear layer of the arrays the pallas_call is given.

  The call walks the 40000 rows in 5 blocks of 8000. At block `t` the body sees rows 8000·t … 8000·t + 7999
  of the node features, the whole weight matrix and the whole one-row bias, and writes rows 8000·t … of the
  output. Row `p` of block `t` is row 8000·t + p of the array, so what the body stores there —
  (∑ k, x (p, k) · w (q, k)) + b (0, q) — is the linear layer at (8000·t + p, q). The five blocks tile the
  array (row `r` lies in block `r / 8000`), hence the whole output array is the linear layer.
-/
import proofs.«127826_j16449724744840_1_alg».proof.Proof.Gen.KernelIdeal.Value
import proofs.«127826_j16449724744840_1_alg».proof.Proof.Payload
import proofs.«127826_j16449724744840_1_alg».proof.Proof.Projection
import proofs.«127826_j16449724744840_1_alg».proof.Proof.KernelArrays

noncomputable section

namespace Cert.KernelIdeal.Linear

open Cert.KernelIdeal Cert.KernelIdeal.Gen Idealize.ShloMosaic Idealize.ShloMosaic.TcCoe Idealize.SL.Sem
open Idealize.ShloMosaic.ValueIdx Cert.KernelIdeal.Arrays
open Idealize.ShloMosaic.Pipeline (Dat)

variable (m : (ℓ : Loc nD τ sig) → Buf (Elt Ideal) ℓ) (ρ : Dev nD → PrngReg)

/-- The array the output ends holding: the linear layer of the call's three operands. -/
def out (c : Dev nD) : Vec Ideal S40000x128 .f32 := Cert.Projection.linear (feat m c) (wts m c) (bias m c)

theorem hz : (![0, 0] : Fin 2 → Nat) = fun _ => 0 := funext fun a => by fin_cases a <;> rfl

/-- The body's stored value at an index of the block given by its coordinates. -/
theorem pay_idx (x : Vec Ideal S8000x128 .f32) (w : Vec Ideal S128x128 .f32) (b : Vec Ideal S1x128 .f32) (j : S8000x128.Idx) :
    k0_pay1 (F := Ideal) x w b j = (∑ k : Fin 128, x (ix2 (j 0) k) * w (ix2 (j 1) k)) + b (ix2 (0 : Fin 1) (j 1)) :=
  (congrArg (k0_pay1 (F := Ideal) x w b) (eq_ix2 j)).trans (Payload.pay_at x w b (j 0) (j 1))

/-- Where the blocks sit: the feature and output blocks at point `t` start at row 8000·t, the weights and the
    bias are always the whole arrays. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- What point `t` writes back is block `t` of the linear layer's array. -/
theorem flushed_eq (c : Dev nD) (t : Fin cfg0.N) :
    (dats m 0 c).flushed 3 t = ((cfg0.win 3).blk t).view.read (Elt Ideal) (out m c) := by
  rw [Cert.KernelIdeal.Value.flushed3]
  unfold out0_3
  rw [View.canon_unit_zero hz]
  simp only [View.ld_unit_zero (S := S8000x128) hz, View.ld_unit_zero (S := S128x128) hz, View.ld_unit_zero (S := S1x128) hz]
  obtain ⟨e0, e1, e2, e3, e4, e5, e6, e7⟩ := idx_facts t
  funext j
  show k0_pay1 (F := Ideal) (iblk m c 0 t) (iblk m c 1 t) (iblk m c 2 t) j = out m c (((cfg0.win 3).blk t).view.emb j)
  refine (pay_idx (iblk m c 0 t) (iblk m c 1 t) (iblk m c 2 t) j).trans ?_
  have hj0 : (j 0).val < 8000 := (j 0).isLt
  have hj1 : (j 1).val < 128 := (j 1).isLt
  have hx : ∀ k : Fin 128, iblk m c 0 t (ix2 (j 0) k) = feat m c (ix2 ((((cfg0.win 3).blk t).view.emb j) 0) k) := fun k => by
    show V m c main_v9 (((cfg0.win 0).blk t).view.emb (ix2 (j 0) k)) = V m c main_v9 _
    refine congrArg _ (funext fun a => Fin.ext ?_)
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 128 + 1 * k.val = k.val; omega
  have hw : ∀ k : Fin 128, iblk m c 1 t (ix2 (j 1) k) = wts m c (ix2 ((((cfg0.win 3).blk t).view.emb j) 1) k) := fun k => by
    show V m c main_arg3 (((cfg0.win 1).blk t).view.emb (ix2 (j 1) k)) = V m c main_arg3 _
    refine congrArg _ (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * k.val = k.val; omega
  have hb : iblk m c 2 t (ix2 (0 : Fin 1) (j 1)) = bias m c (ix1 ((((cfg0.win 3).blk t).view.emb j) 1)) := by
    show V m c main_v10 (((cfg0.win 2).blk t).view.emb (ix2 (0 : Fin 1) (j 1))) = V m c main_v10 (ix2 (0 : Fin 1) _)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hb]
  simp only [hx, hw]
  rfl

/-- An index of the output array lies in point `t`'s block iff each coordinate lies in the block's range. -/
theorem mem_blk (t : Fin cfg0.N) (i : S40000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v11).slice (win0_3.rect t)).set ↔ _
  rw [View.set_slice_whole, Rect.mem_set_unit]
  exact Iff.rfl

/-- Each of the five row blocks is some point's. -/
theorem idx_onto : ∀ q : Fin 5, ∃ t : Fin cfg0.N, win0_3.index t = ![q.val, 0] :=
  (by decide +kernel : ∀ q : Fin 5, ∃ t : Fin grid0.N, win0_3.index t = ![q.val, 0])

/-- Row `r` lies in block `r / 8000`: the blocks cover the array. -/
theorem cover (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := idx_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- The output array after the run is the linear layer of the arrays the call was given. -/
theorem final (c : Dev nD) : (dats m 0 c).arrAt 3 cfg0.N = out m c :=
  (dats m 0 c).arrAt_eq_of_cover 3 (out m c) (fun t _ => flushed_eq m c t) cover

/-- The same in the program's arguments: the linear layer of the message-passing stage's features, the weights and
    the bias. -/
theorem final_args (c : Dev nD) : (dats m 0 c).arrAt 3 cfg0.N
    = Cert.Projection.linear
        (messages (m ((c : Thread nD τ).loc main_arg0)) (m ((c : Thread nD τ).loc main_arg1)) (m ((c : Thread nD τ).loc main_arg2)))
        (m ((c : Thread nD τ).loc main_arg3)) (m ((c : Thread nD τ).loc main_arg4)) := by
  rw [final]
  unfold out
  rw [feat_eq, wts_eq, bias_eq]

/-- The kernel program's run: it ends with its result at the linear layer of the message-passing stage's features,
    its arguments unchanged. -/
theorem run : θ_run defs (onTc (τ := τ) (main (F := Ideal))) ⟨m, fun _ => 0, ρ⟩ fun r => ∀ c : Dev nD,
      r.2.mem ((c : Thread nD τ).loc main_v11) = Cert.Projection.linear
        (messages (m ((c : Thread nD τ).loc main_arg0)) (m ((c : Thread nD τ).loc main_arg1)) (m ((c : Thread nD τ).loc main_arg2)))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩)
    (Cert.KernelIdeal.Value.run_blocks m ρ)

end Cert.KernelIdeal.Linear

end
-- ==== Proof.ReferenceLinear.lean ====
/-
  The reference's last five operations are the linear layer.

  After the message passing has produced the node features `h`, the reference transposes `W`, contracts the
  second axis of `h` with the first axis of `Wᵀ`, and adds the bias broadcast to every row. Read at an index
  `(r, j)`: the product is ∑ k, h (r, k) · Wᵀ (k, j), the transpose read back is W (j, k), and the broadcast
  bias is b j — the function `Projection.linear` of `h`, `W`, `b`.
-/
import proofs.«127826_j16449724744840_1_alg».proof.Proof.Gen.ReferenceIdeal.Read
import proofs.«127826_j16449724744840_1_alg».proof.Proof.Projection

noncomputable section

namespace Cert.ReferenceIdeal.Linear

open Cert.ReferenceIdeal Cert.ReferenceIdeal.Read Idealize.ShloMosaic Idealize.ShloMosaic.ValueIdx

/-- The left operand of the product is read at `(r, k)`. -/
theorem lidx_eq (i : S40000x128.Idx) (k : Fin 128) : lidx_main_v11 i k = ix2 (i 0) k :=
  funext fun a => Fin.ext (by match a with | ⟨0, _⟩ => rfl | ⟨1, _⟩ => rfl)

/-- The right operand, `Wᵀ` at `(k, j)`, is `W` at `(j, k)`. -/
theorem ridx_eq (i : S40000x128.Idx) (k : Fin 128) : idx_main_v10 (ridx_main_v11 i k) = ix2 (i 1) k :=
  funext fun a => Fin.ext (by match a with | ⟨0, _⟩ => rfl | ⟨1, _⟩ => rfl)

/-- The bias broadcast over the rows, at `(r, j)`, is `b j`. -/
theorem bidx_eq (i : S40000x128.Idx) : idx_main_v12 (idx_main_v13 i) = ix1 (i 1) :=
  funext fun a => Fin.ext (by match a with | ⟨0, _⟩ => rfl)

/-- The reference's result is the linear layer of the message-passing stage's node features. -/
theorem result_eq (x0 : (⟨S40000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.Projection.linear (val_main_v9 (F := Ideal) x0 x1 x2) x3 x4 := by
  funext i
  rw [val_main_v14_apply, val_main_v11_apply, val_main_v13_apply, val_main_v12_apply]
  simp only [val_main_v10_apply, lidx_eq, ridx_eq, bidx_eq]
  rfl

end Cert.ReferenceIdeal.Linear

end
-- ==== Proof.lean ====
/-
  A graph-convolution layer: the kernel against its reference, over the extended reals.

  Both programs first pass messages — every edge carries its source node's 128 features, and the rows arriving
  at a node are summed (a gather by `src`, a scatter-add by `dst`): the same operations on the same arguments in
  both programs, so the node features `h` they produce are one term. Both then apply the linear layer
      out (r, j) = (∑ k, h (r, k) · W (j, k)) + b j.
  The reference does so with one matrix product against the transposed weights and a broadcast bias; the kernel
  walks the rows in five blocks of 8000, contracting each block with the weights' second axis on the matrix unit
  (its narrowing of the operands to bf16 changes no value over the extended reals) and adding the bias row.
  Read at an index the two are the same sum, term for term, so no finiteness is used.

  The modules: `Projection` states the linear layer as a function of whole arrays; `Payload` reads what the body
  stores at an index; `KernelArrays` names the arrays the call is given in terms of the arguments;
  `KernelLinear` shows the blocks tile the output and concludes the kernel's run; `ReferenceLinear` reads the
  reference's last operations at an index. Here: the two message-passing stages are one term, and the claims.
-/
import proofs.«127826_j16449724744840_1_alg».proof.Defs
import proofs.«127826_j16449724744840_1_alg».proof.Proof.Gen.Kernel
import proofs.«127826_j16449724744840_1_alg».proof.Proof.Gen.Kernel.Skeleton
import proofs.«127826_j16449724744840_1_alg».proof.Proof.Gen.Kernel.Launch
import proofs.«127826_j16449724744840_1_alg».proof.Proof.Gen.Kernel.Points
import proofs.«127826_j16449724744840_1_alg».proof.Proof.Gen.Kernel.Frame
import proofs.«127826_j16449724744840_1_alg».proof.Proof.Gen.KernelIdeal
import proofs.«127826_j16449724744840_1_alg».proof.Proof.Gen.KernelIdeal.Skeleton
import proofs.«127826_j16449724744840_1_alg».proof.Proof.Gen.KernelIdeal.Launch
import proofs.«127826_j16449724744840_1_alg».proof.Proof.Gen.KernelIdeal.Points
import proofs.«127826_j16449724744840_1_alg».proof.Proof.Gen.KernelIdeal.Frame
import proofs.«127826_j16449724744840_1_alg».proof.Proof.Gen.ReferenceIdeal
import proofs.«127826_j16449724744840_1_alg».proof.Proof.Gen.Pre_finite_inputs
import proofs.«127826_j16449724744840_1_alg».proof.Proof.Gen.KernelIdeal.Value
import proofs.«127826_j16449724744840_1_alg».proof.Proof.Gen.ReferenceIdeal.Run
import proofs.«127826_j16449724744840_1_alg».proof.Proof.Gen.ReferenceIdeal.Read
import proofs.«127826_j16449724744840_1_alg».proof.Proof.KernelLinear
import proofs.«127826_j16449724744840_1_alg».proof.Proof.ReferenceLinear
import Idealize.ShloMosaic.Adequacy
import Idealize.ShloMosaic.Init

noncomputable section

namespace Cert.Proof

open Idealize.ShloMosaic Idealize.SL.Sem

/-- The two programs' message-passing stages are the same operations of the same arguments. -/
theorem messages_eq (x : (⟨Cert.ReferenceIdeal.S40000x128, .f32⟩ : BufTy).Contents (Elt Ideal))
    (src dst : (⟨Cert.ReferenceIdeal.S640000, .i32⟩ : BufTy).Contents (Elt Ideal)) :
    Cert.ReferenceIdeal.Read.val_main_v9 (F := Ideal) x src dst = Cert.KernelIdeal.Arrays.messages x src dst := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the linear layer of the one message-passing term, the weights and the bias. -/
theorem algebraic : Cert.algebraic_KernelIdeal_ReferenceIdeal := by
  intro m ρ m' ρ' _ hagree
  refine ⟨_, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Linear.result_eq, messages_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
